-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1000000 : Shape := ⟨1, ![1000000]⟩
abbrev S257x128 : Shape := ⟨2, ![257, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S1000000 : S_.BroadcastsInDim S1000000 (![] : Fin 0 → Fin S1000000.rank)
  reducesTo_S1000000_S_d0 : S1000000.ReducesTo [0] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg6 : FVec F S128 .f32) (main_arg7 : FVec F S256x128 .f32) (main_arg8 : FVec F S128 .f32) (main_v13 : IVec S_ 1) (main_v16 : IVec S257x128 1) : IVec S_ 1 :=
  let main_c_5 : IVec S_ 1 := constantI S_ 1 1#1
  let main_v17 : IVec S_ 1 := (fun x v => Host.reduce IntOp.andi x v reducesTo_S257x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S50000x128 .f32) (main_arg2 : IVec S1000000 32) (main_arg3 : IVec S1000000 32) (main_arg4 : FVec F S1000000 .f32) (main_arg5 : FVec F S257x128 .f32) (main_arg6 : FVec F S128 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S257x128 .f32 := Host.absf main_arg5
  let main_cst_4 : FVec F S_ .f32 := constant S_ .f32 0x7F800000#32
  let main_v15 : FVec F S257x128 .f32 := broadcastInDim S257x128 ![] bcast_S_S257x128 main_cst_4
  let main_v16 : IVec S257x128 1 := cmpf .olt main_v14 main_v15
  fn_part1 (F := F) main_arg6 main_arg7 main_arg8 main_v13 main_v16
-- ==== Kernel.lean ====
abbrev S100000x128 : Shape := ⟨2, ![100000, 128]⟩
abbrev S50000x128 : Shape := ⟨2, ![50000, 128]⟩
abbrev S1000000 : Shape := ⟨1, ![1000000]⟩
abbrev S257x128 : Shape := ⟨2, ![257, 128]⟩
abbrev S128 : Shape := ⟨1, ![128]⟩
abbrev S256x128 : Shape := ⟨2, ![256, 128]⟩
abbrev S128x128 : Shape := ⟨2, ![128, 128]⟩
abbrev S1x128 : Shape := ⟨2, ![1, 128]⟩
abbrev S_ : Shape := ⟨0, ![]⟩
abbrev S20000x128 : Shape := ⟨2, ![20000, 128]⟩
abbrev S10000x128 : Shape := ⟨2, ![10000, 128]⟩
abbrev S1000000x1 : Shape := ⟨2, ![1000000, 1]⟩
abbrev S1000000x128 : Shape := ⟨2, ![1000000, 128]⟩

abbrev nBuf : Space → Nat
  | .hbm => 52
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S257x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S100000x128, .bf16⟩
  | .hbm, ⟨17, _⟩ => ⟨S50000x128, .bf16⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .bf16⟩
  | .hbm, ⟨27, _⟩ => ⟨S1000000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x128, .bf16⟩
  | .hbm, ⟨37, _⟩ => ⟨S1000000x128, .f32⟩
  | .hbm, ⟨38, _⟩ => ⟨S1000000x128, .f32⟩
  | .hbm, ⟨39, _⟩ => ⟨S_, .f32⟩
  | .hbm, ⟨40, _⟩ => ⟨S1000000x128, .f32⟩
  | .hbm, ⟨41, _⟩ => ⟨S1000000x128, .f32⟩
  | .hbm, ⟨42, _⟩ => ⟨S_, .f32⟩
  | .hbm, ⟨43, _⟩ => ⟨S100000x128, .f32⟩
  | .hbm, ⟨44, _⟩ => ⟨S1000000x1, .i32⟩
  | .hbm, ⟨45, _⟩ => ⟨S100000x128, .f32⟩
  | .hbm, ⟨46, _⟩ => ⟨S128x128, .f32⟩
  | .hbm, ⟨47, _⟩ => ⟨S128x128, .bf16⟩
  | .hbm, ⟨48, _⟩ => ⟨S128x128, .f32⟩
  | .hbm, ⟨49, _⟩ => ⟨S128x128, .bf16⟩
  | .hbm, ⟨50, _⟩ => ⟨S1x128, .f32⟩
  | .hbm, ⟨51, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S128x128, .bf16⟩
  | .local _ .vmem, ⟨3, _⟩ => ⟨S1x128, .f32⟩
  | .local _ .vmem, ⟨4, _⟩ => ⟨S20000x128, .bf16⟩
  | .local _ .vmem, ⟨5, _⟩ => ⟨S20000x128, .bf16⟩
  | .local _ .vmem, ⟨6, _⟩ => ⟨S10000x128, .f32⟩
  | .local _ .vmem, ⟨7, _⟩ => ⟨S10000x128, .f32⟩
  | .local _ .vmem, ⟨8, _⟩ => ⟨S128x128, .bf16⟩
  | .local _ .vmem, ⟨9, _⟩ => ⟨S1x128, .f32⟩
  | .local _ .vmem, ⟨10, _⟩ => ⟨S10000x128, .bf16⟩
  | .local _ .vmem, ⟨11, _⟩ => ⟨S10000x128, .bf16⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .bf16⟩
  | .local _ .vmem, ⟨17, _⟩ => ⟨S128x128, .bf16⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S257x128_S128x128_0_0 : S257x128.Slices ![0, 0] S128x128
  bitsLt_bf16_f32 : FTy.bits .bf16 < FTy.bits .f32
  slices_S257x128_S128x128_128_0 : S257x128.Slices ![128, 0] S128x128
  shapeCasts_S128_S1x128 : S128.ShapeCasts S1x128
  bcast_S_S1x128 : S_.BroadcastsInDim S1x128 (![] : Fin 0 → Fin S1x128.rank)
  inb_S20000x128_S20000x128_0_0 : ∀ a, (![0, 0] : Fin 2 → Nat) a + S20000x128.size a ≤ S20000x128.size a
  h_S20000x128 : 0 < S20000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  packedbf16_S20000x128_S20000x128_0_0 : (Rect.unit (s := S20000x128) ![0, 0] S20000x128.size inb_S20000x128_S20000x128_0_0).PackedRows (EltTy.packing .bf16)
  inb_S10000x128_S10000x128_0_0 : ∀ a, (![0, 0] : Fin 2 → Nat) a + S10000x128.size a ≤ S10000x128.size a
  h_S10000x128 : 0 < S10000x128.numel
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  shapeCasts_S10000x128_S10000x128 : S10000x128.ShapeCasts S10000x128
  dot_S20000x128_S128x128_S20000x128_1_0_0_1_n_n_wf : DotDims.WF S20000x128 S128x128 S20000x128 [1] [0] [0] [1] [] []
  dot_S10000x128_S128x128_S10000x128_1_0_0_1_n_n_wf : DotDims.WF S10000x128 S128x128 S10000x128 [1] [0] [0] [1] [] []
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x128.size a ≤ S100000x128.size a
  hwx0_3 : ∀ i : grid0.Coords, EltTy.bits .bf16 = 32 ∨ (Rect.block (s := S100000x128) S20000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .bf16 = 32 ∨ (Rect.block (s := S50000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S20000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1000000 : Shape := ⟨1, ![1000000]⟩
abbrev S257x128 : Shape := ⟨2, ![257, 128]⟩
abbrev S128 : Shape := ⟨1, ![128]⟩
abbrev S256x128 : Shape := ⟨2, ![256, 128]⟩
abbrev S_ : Shape := ⟨0, ![]⟩
abbrev S1000000x1 : Shape := ⟨2, ![1000000, 1]⟩
abbrev S1000000x128 : Shape := ⟨2, ![1000000, 128]⟩
abbrev S1000000x257 : Shape := ⟨2, ![1000000, 257]⟩
abbrev S1x128 : Shape := ⟨2, ![1, 128]⟩
abbrev S100000x256 : Shape := ⟨2, ![100000, 256]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S257x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x128, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S_, .f32⟩
  | .hbm, ⟨28, _⟩ => ⟨S1000000, .f32⟩
  | .hbm, ⟨29, _⟩ => ⟨S1000000x1, .f32⟩
  | .hbm, ⟨30, _⟩ => ⟨S1000000x257, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S_, .f32⟩
  | .hbm, ⟨39, _⟩ => ⟨S100000x128, .f32⟩
  | .hbm, ⟨40, _⟩ => ⟨S1000000x1, .i32⟩
  | .hbm, ⟨41, _⟩ => ⟨S100000x128, .f32⟩
  | .hbm, ⟨42, _⟩ => ⟨S100000x256, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x1_S1000000x257_d1 : Shape.Concatenates [S1000000x128, S1000000x128, S1000000x1] S1000000x257 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x257_S257x128_S1000000x128_1_0_0_1_n_n_wf : DotDims.WF S1000000x257 S257x128 S1000000x128 [1] [0] [0] [1] [] []
  scatter_S100000x128_S1000000x1_S1000000x128_1_0_0_1_wf : ScatterDims.WF S100000x128 S1000000x1 S1000000x128 [1] [0] [0] 1
  dot_S100000x256_S256x128_S100000x128_1_0_0_1_n_n_wf : DotDims.WF S100000x256 S256x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x257_S257x128_S1000000x128_1_0_0_1_n_n : DotDims S1000000x257 S257x128 S1000000x128 where
  lhsContracting := [1]
  rhsContracting := [0]
  lhsNonContracting := [0]
  rhsNonContracting := [1]
  lhsBatch := []
  rhsBatch := []
  wf := dot_S1000000x257_S257x128_S1000000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibPlainDot.lean ====
/-
  A plain matrix product read at an entry, at the ideal values.

  For the dimension numbers of an M×K by K×N product (contract the left operand's second axis with the right
  operand's first, no batch axes), a `tpu.matmul` into the zero accumulator and the host's `dot_general` are, at
  the entry (r, c), the sum over k of left (r, k) times right (k, c) on the extended reals.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's index at output entry `j` and contraction index `q`: row of `j`, column `q`. -/
theorem lhsIdx_eq (j : (⟨2, ![M, N]⟩ : Shape).Idx) (k : Fin K) :
    (DotDims.plain M K N).lhsIdx j ((contrEquiv1 (DotDims.plain M K N) K rfl rfl).symm k)
      = ix2 ⟨(j 0).val, idx2_lt0 j⟩ k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index there: row `q`, column of `j`. -/
theorem rhsIdx_eq (j : (⟨2, ![M, N]⟩ : Shape).Idx) (k : Fin K) :
    (DotDims.plain M K N).rhsIdx j ((contrEquiv1 (DotDims.plain M K N) K rfl rfl).symm k)
      = ix2 k ⟨(j 1).val, idx2_lt1 j⟩ := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A `tpu.matmul` of these dimension numbers into the zero splat, at entry (r, c): `∑ k, lhs (r, k) * rhs (k, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's `dot_general` of these dimension numbers at entry (r, c): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.ProjVar.lean ====
/-
  The first projection kernel: every row of the variable table against a 128 × 128 weight block, plus a bias row.

  The grid has 5 points; point t takes the 20000 rows of the table from row 20000 t on (the whole weight block and the
  whole bias row at every point) and writes the same rows of the result. Entry (r, d) of a block's result is
      ∑ k, x (r, k) * w (k, d) + b (0, d),
  the changes of float format being the identity on the extended reals. The blocks tile the 100000 rows, so the
  result array is that function of the region's entry contents at every index.
-/
import proofs.«425157_j3728031613009_3_alg».proof.Proof.Gen.KernelIdeal.Frame
import proofs.«425157_j3728031613009_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjVar

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The kernel's contraction is the plain M×K by K×N one. -/
theorem dims_eq : dot_S20000x128_S128x128_S20000x128_1_0_0_1_n_n = DotDims.plain 20000 128 128 := rfl

theorem hz : (![0, 0] : Fin 2 → Nat) = fun _ => 0 := funext fun a => by fin_cases a <;> rfl

/-- The body's arithmetic at entry (r, d) of a block. -/
theorem pay_apply (x0 : Vec Ideal S20000x128 .f32) (x1 : Vec Ideal S128x128 .bf16) (x2 : Vec Ideal S1x128 .f32)
    (r : Fin 20000) (d : Fin 128) :
    k0_pay1 (F := Ideal) x0 x1 x2 (ix2 r d)
      = (∑ k : Fin 128, x0 (ix2 r k) * x1 (ix2 k d)) + x2 (ix2 (0 : Fin 1) d) := by
  unfold k0_pay1
  rw [truncf_apply, addf_apply, shapeCast_self, shapeCast_self, dims_eq]
  refine congrArg₂ (· + ·) ?_ (broadcastTo_1b_ab_apply x2 _ r d)
  exact PlainDot.matmul_zero_apply 20000 128 128 none (truncf .bf16 x0 bitsLt_bf16_f32) x1 r d

/-- The function the result array holds: of the table `X`, the weight block `W` and the bias row `b`. -/
def G (X : S100000x128.Idx → Elt Ideal .f32) (W : S128x128.Idx → Elt Ideal .bf16) (b : S1x128.Idx → Elt Ideal .f32) :
    S100000x128.Idx → Elt Ideal .bf16 :=
  fun j => (∑ k : Fin 128, X (ix2 ⟨(j 0).val, idx2_lt0 j⟩ k) * W (ix2 k ⟨(j 1).val, idx2_lt1 j⟩))
    + b (ix2 (0 : Fin 1) ⟨(j 1).val, idx2_lt1 j⟩)

/-- The printed index maps over the grid: the table's and the result's blocks move with the point along the rows;
    the weight block and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of `G` of the arrays as the region finds them. -/
theorem flushed_eq (c : Dev nD) (t : Fin cfg0.N) :
    (dat0 V c).flushed 3 t
      = ((cfg0.win 3).blk t).view.read (Elt Ideal) (G (V c main_arg0) (V c main_v1) (V c main_v4)) := by
  show (cfg0.win 3).cut (grid0.coords t) ((dat0 V c).after 3 t) = _
  rw [after0_3]
  unfold out0_3
  rw [View.canon_unit_zero hz]
  simp only [View.ld_unit_zero (S := S20000x128) hz, View.ld_unit_zero (S := S128x128) hz, View.ld_unit_zero (S := S1x128) hz]
  obtain ⟨e00, e01, e10, e11, e20, e21, e30, e31⟩ := idx_facts t
  have ht : t.val < 5 := t.isLt
  funext y
  obtain ⟨p, q, rfl⟩ : ∃ (p : Fin 20000) (q : Fin 128), y = ix2 p q := ⟨y 0, y 1, eq_ix2 y⟩
  refine (pay_apply (iblk0 V c 0 t) (iblk0 V c 1 t) (iblk0 V c 2 t) p q).trans ?_
  -- the table's block at the point: its row p is row 20000 t + p of the table
  have hx : ∀ k : Fin 128, iblk0 V c 0 t (ix2 p k) = V c main_arg0 (ix2 ⟨t.val * 20000 + p.val, by omega⟩ k) := fun k => by
    show V c main_arg0 (((cfg0.win 0).blk t).view.emb (ix2 p k)) = _
    refine congrArg _ (funext fun a => Fin.ext ?_)
    match a with
    | ⟨0, _⟩ => show win0_0.index t (0 : Fin 2) * 20000 + 1 * p.val = t.val * 20000 + p.val; omega
    | ⟨1, _⟩ => show win0_0.index t (1 : Fin 2) * 128 + 1 * k.val = k.val; omega
  -- the weight block and the bias row are whole at every point
  have hw : ∀ k : Fin 128, iblk0 V c 1 t (ix2 k q) = V c main_v1 (ix2 k q) := fun k => by
    show V c main_v1 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have hb : iblk0 V c 2 t (ix2 (0 : Fin 1) q) = V c main_v4 (ix2 (0 : Fin 1) q) := by
    show V c main_v4 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  -- the result's block at the point: its row p is row 20000 t + p of the result
  have hr : View.read (Elt Ideal) ((View.whole main_v6).slice ((win0 3).rect t))
        (G (V c main_arg0) (V c main_v1) (V c main_v4)) (ix2 p q)
      = G (V c main_arg0) (V c main_v1) (V c main_v4) (ix2 ⟨t.val * 20000 + p.val, by omega⟩ q) := by
    show G (V c main_arg0) (V c main_v1) (V c main_v4) (((cfg0.win 3).blk t).view.emb (ix2 p q)) = _
    refine congrArg _ (funext fun a => Fin.ext ?_)
    match a with
    | ⟨0, _⟩ => show win0_3.index t (0 : Fin 2) * 20000 + 1 * p.val = t.val * 20000 + p.val; omega
    | ⟨1, _⟩ => show win0_3.index t (1 : Fin 2) * 128 + 1 * q.val = q.val; omega
  rw [hr, hb]
  simp only [hx, hw]
  rfl

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S20000x128.size a ≤ (i a).val
      ∧ (i a).val < win0_3.index t a * S20000x128.size a + S20000x128.size a := by
  show i ∈ ((View.whole main_v6).slice (win0_3.rect t)).set ↔ _
  rw [View.set_slice_whole, Rect.mem_set_unit]
  exact Iff.rfl

/-- Every index of the result is in the block of the point its row falls to: row r belongs to point r / 20000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 20000 :=
    ⟨⟨(i 0).val / 20000, by show (i 0).val / 20000 < 5; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 20000 ≤ (i 0).val ∧ (i 0).val < win0_3.index t (0 : Fin 2) * 20000 + 20000
    omega
  | ⟨1, _⟩ =>
    show win0_3.index t (1 : Fin 2) * 128 ≤ (i 1).val ∧ (i 1).val < win0_3.index t (1 : Fin 2) * 128 + 128
    omega

/-- THE RESULT ARRAY after the region: `G` of the arrays as the region finds them, at every index. -/
theorem array_eq (c : Dev nD) :
    (dat0 V c).arrAt 3 cfg0.N = G (V c main_arg0) (V c main_v1) (V c main_v4) :=
  (dat0 V c).arrAt_eq_of_cover 3 (G (V c main_arg0) (V c main_v1) (V c main_v4)) (fun t _ => flushed_eq V c t) cover

end Cert.KernelIdeal.ProjVar

end
-- ==== Proof.ProjFac.lean ====
/-
  The second projection kernel: every row of the factor table against a 128 × 128 weight block, plus a bias row.

  The grid has 5 points; point t takes the 10000 rows of the table from row 10000 t on (the whole weight block and the
  whole bias row at every point) and writes the same rows of the result. Entry (r, d) of a block's result is
      ∑ k, x (r, k) * w (k, d) + b (0, d),
  the changes of float format being the identity on the extended reals. The blocks tile the 50000 rows, so the
  result array is that function of the region's entry contents at every index.
-/
import proofs.«425157_j3728031613009_3_alg».proof.Proof.Gen.KernelIdeal.Frame
import proofs.«425157_j3728031613009_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjFac

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The kernel's contraction is the plain M×K by K×N one. -/
theorem dims_eq : dot_S10000x128_S128x128_S10000x128_1_0_0_1_n_n = DotDims.plain 10000 128 128 := rfl

theorem hz : (![0, 0] : Fin 2 → Nat) = fun _ => 0 := funext fun a => by fin_cases a <;> rfl

/-- The body's arithmetic at entry (r, d) of a block. -/
theorem pay_apply (x0 : Vec Ideal S10000x128 .f32) (x1 : Vec Ideal S128x128 .bf16) (x2 : Vec Ideal S1x128 .f32)
    (r : Fin 10000) (d : Fin 128) :
    k1_pay1 (F := Ideal) x0 x1 x2 (ix2 r d)
      = (∑ k : Fin 128, x0 (ix2 r k) * x1 (ix2 k d)) + x2 (ix2 (0 : Fin 1) d) := by
  unfold k1_pay1
  rw [truncf_apply, addf_apply, shapeCast_self, shapeCast_self, dims_eq]
  refine congrArg₂ (· + ·) ?_ (broadcastTo_1b_ab_apply x2 _ r d)
  exact PlainDot.matmul_zero_apply 10000 128 128 none (truncf .bf16 x0 bitsLt_bf16_f32) x1 r d

/-- The function the result array holds: of the table `X`, the weight block `W` and the bias row `b`. -/
def G (X : S50000x128.Idx → Elt Ideal .f32) (W : S128x128.Idx → Elt Ideal .bf16) (b : S1x128.Idx → Elt Ideal .f32) :
    S50000x128.Idx → Elt Ideal .bf16 :=
  fun j => (∑ k : Fin 128, X (ix2 ⟨(j 0).val, idx2_lt0 j⟩ k) * W (ix2 k ⟨(j 1).val, idx2_lt1 j⟩))
    + b (ix2 (0 : Fin 1) ⟨(j 1).val, idx2_lt1 j⟩)

/-- The printed index maps over the grid: the table's and the result's blocks move with the point along the rows;
    the weight block and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of `G` of the arrays as the region finds them. -/
theorem flushed_eq (c : Dev nD) (t : Fin cfg1.N) :
    (dat1 V c).flushed 3 t
      = ((cfg1.win 3).blk t).view.read (Elt Ideal) (G (V c main_arg1) (V c main_v3) (V c main_v5)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts t
  have ht : t.val < 5 := t.isLt
  funext y
  obtain ⟨p, q, rfl⟩ : ∃ (p : Fin 10000) (q : Fin 128), y = ix2 p q := ⟨y 0, y 1, eq_ix2 y⟩
  refine (pay_apply (iblk1 V c 0 t) (iblk1 V c 1 t) (iblk1 V c 2 t) p q).trans ?_
  -- the table's block at the point: its row p is row 10000 t + p of the table
  have hx : ∀ k : Fin 128, iblk1 V c 0 t (ix2 p k) = V c main_arg1 (ix2 ⟨t.val * 10000 + p.val, by omega⟩ k) := fun k => by
    show V c main_arg1 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * k.val = k.val; omega
  -- the weight block and the bias row are whole at every point
  have hw : ∀ k : Fin 128, iblk1 V c 1 t (ix2 k q) = V c main_v3 (ix2 k q) := fun k => by
    show V c main_v3 (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  have hb : iblk1 V c 2 t (ix2 (0 : Fin 1) q) = V c main_v5 (ix2 (0 : Fin 1) q) := by
    show V c main_v5 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  -- the result's block at the point: its row p is row 10000 t + p of the result
  have hr : View.read (Elt Ideal) ((View.whole main_v7).slice ((win1 3).rect t))
        (G (V c main_arg1) (V c main_v3) (V c main_v5)) (ix2 p q)
      = G (V c main_arg1) (V c main_v3) (V c main_v5) (ix2 ⟨t.val * 10000 + p.val, by omega⟩ q) := by
    show G (V c main_arg1) (V c main_v3) (V c main_v5) (((cfg1.win 3).blk t).view.emb (ix2 p q)) = _
    refine congrArg _ (funext fun a => Fin.ext ?_)
    match a with
    | ⟨0, _⟩ => show win1_3.index t (0 : Fin 2) * 10000 + 1 * p.val = t.val * 10000 + p.val; omega
    | ⟨1, _⟩ => show win1_3.index t (1 : Fin 2) * 128 + 1 * q.val = q.val; omega
  rw [hr, hb]
  simp only [hx, hw]
  rfl

/-- An index of the result is in point `t`'s block iff each coordinate is in the block's range on its axis. -/
theorem mem_blk (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v7).slice (win1_3.rect t)).set ↔ _
  rw [View.set_slice_whole, Rect.mem_set_unit]
  exact Iff.rfl

/-- Every index of the result is in the block of the point its row falls to: row r belongs to point r / 10000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 10000 :=
    ⟨⟨(i 0).val / 10000, by show (i 0).val / 10000 < 5; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- THE RESULT ARRAY after the region: `G` of the arrays as the region finds them, at every index. -/
theorem array_eq (c : Dev nD) :
    (dat1 V c).arrAt 3 cfg1.N = G (V c main_arg1) (V c main_v3) (V c main_v5) :=
  (dat1 V c).arrAt_eq_of_cover 3 (G (V c main_arg1) (V c main_v3) (V c main_v5)) (fun t _ => flushed_eq V c t) cover

end Cert.KernelIdeal.ProjFac

end
-- ==== Proof.Combine.lean ====
/-
  The combine kernel: a node's new row from its own row and its aggregated row.

  The grid has 10 points; point t takes the 10000 rows of the node table and of the aggregated table from row
  10000 t on (the two whole 128 × 128 weight blocks and the whole bias row at every point) and writes the same rows of
  the result. Entry (r, d) of a block's result is
      x (r, d) + max (∑ k, x (r, k) * u (k, d) + ∑ k, a (r, k) * w (k, d) + b (0, d)) 0,
  the changes of float format being the identity on the extended reals. The blocks tile the 100000 rows, so the result
  array is that function of the region's entry contents at every index.
-/
import proofs.«425157_j3728031613009_3_alg».proof.Proof.Gen.KernelIdeal.Frame
import proofs.«425157_j3728031613009_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The kernel's two contractions are the plain M×K by K×N one. -/
theorem dims_eq : dot_S10000x128_S128x128_S10000x128_1_0_0_1_n_n = DotDims.plain 10000 128 128 := rfl

theorem hz : (![0, 0] : Fin 2 → Nat) = fun _ => 0 := funext fun a => by fin_cases a <;> rfl

/-- The body's arithmetic at entry (r, d) of a block. -/
theorem pay_apply (x0 x1 : Vec Ideal S10000x128 .f32) (x2 x3 : Vec Ideal S128x128 .bf16) (x4 : Vec Ideal S1x128 .f32)
    (r : Fin 10000) (d : Fin 128) :
    k2_pay1 (F := Ideal) x0 x1 x2 x3 x4 (ix2 r d)
      = x0 (ix2 r d) + max ((∑ k : Fin 128, x0 (ix2 r k) * x2 (ix2 k d)) + (∑ k : Fin 128, x1 (ix2 r k) * x3 (ix2 k d))
          + x4 (ix2 (0 : Fin 1) d)) 0 := by
  unfold k2_pay1
  rw [addf_apply, maximumf_apply, addf_apply, addf_apply, broadcast_apply, shapeCast_self, shapeCast_self, shapeCast_self,
    shapeCast_self, dims_eq]
  refine congrArg₂ (· + ·) rfl (congrArg₂ max (congrArg₂ (· + ·) (congrArg₂ (· + ·) ?_ ?_) (broadcastTo_1b_ab_apply x4 _ r d)) Ideal.ofBits_zero_f32)
  · exact PlainDot.matmul_zero_apply 10000 128 128 none (truncf .bf16 x0 bitsLt_bf16_f32) x2 r d
  · exact PlainDot.matmul_zero_apply 10000 128 128 none (truncf .bf16 x1 bitsLt_bf16_f32) x3 r d

/-- The function the result array holds: of the node table `X`, the aggregated table `A`, the two weight blocks and
    the bias row. -/
def G (X A : S100000x128.Idx → Elt Ideal .f32) (U W : S128x128.Idx → Elt Ideal .bf16) (b : S1x128.Idx → Elt Ideal .f32) :
    S100000x128.Idx → Elt Ideal .f32 :=
  fun j => X (ix2 ⟨(j 0).val, idx2_lt0 j⟩ ⟨(j 1).val, idx2_lt1 j⟩)
    + max ((∑ k : Fin 128, X (ix2 ⟨(j 0).val, idx2_lt0 j⟩ k) * U (ix2 k ⟨(j 1).val, idx2_lt1 j⟩))
        + (∑ k : Fin 128, A (ix2 ⟨(j 0).val, idx2_lt0 j⟩ k) * W (ix2 k ⟨(j 1).val, idx2_lt1 j⟩))
        + b (ix2 (0 : Fin 1) ⟨(j 1).val, idx2_lt1 j⟩)) 0

/-- The printed index maps over the grid: the two tables' and the result's blocks move with the point along the rows;
    the weight blocks and the bias row stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of `G` of the arrays as the region finds them. -/
theorem flushed_eq (c : Dev nD) (t : Fin cfg2.N) :
    (dat2 V c).flushed 5 t
      = ((cfg2.win 5).blk t).view.read (Elt Ideal)
          (G (V c main_arg0) (V c main_v28) (V c main_v30) (V c main_v32) (V c main_v33)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e50, e51⟩ := idx_facts t
  have ht : t.val < 10 := t.isLt
  funext y
  obtain ⟨p, q, rfl⟩ : ∃ (p : Fin 10000) (q : Fin 128), y = ix2 p q := ⟨y 0, y 1, eq_ix2 y⟩
  refine (pay_apply (iblk2 V c 0 t) (iblk2 V c 1 t) (iblk2 V c 2 t) (iblk2 V c 3 t) (iblk2 V c 4 t) p q).trans ?_
  -- the two tables' blocks at the point: row p is row 10000 t + p of the table
  have hx : ∀ k : Fin 128, iblk2 V c 0 t (ix2 p k) = V c main_arg0 (ix2 ⟨t.val * 10000 + p.val, by omega⟩ k) := fun k => by
    show V c main_arg0 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  have ha : ∀ k : Fin 128, iblk2 V c 1 t (ix2 p k) = V c main_v28 (ix2 ⟨t.val * 10000 + p.val, by omega⟩ k) := fun k => by
    show V c main_v28 (((cfg2.win 1).blk t).view.emb (ix2 p k)) = _
    refine congrArg _ (funext fun a => Fin.ext ?_)
    match a with
    | ⟨0, _⟩ => show win2_1.index t (0 : Fin 2) * 10000 + 1 * p.val = t.val * 10000 + p.val; omega
    | ⟨1, _⟩ => show win2_1.index t (1 : Fin 2) * 128 + 1 * k.val = k.val; omega
  -- the weight blocks and the bias row are whole at every point
  have hu : ∀ k : Fin 128, iblk2 V c 2 t (ix2 k q) = V c main_v30 (ix2 k q) := fun k => by
    show V c main_v30 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  have hw : ∀ k : Fin 128, iblk2 V c 3 t (ix2 k q) = V c main_v32 (ix2 k q) := fun k => by
    show V c main_v32 (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have hb : iblk2 V c 4 t (ix2 (0 : Fin 1) q) = V c main_v33 (ix2 (0 : Fin 1) q) := by
    show V c main_v33 (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  -- the result's block at the point: its row p is row 10000 t + p of the result
  have hr : View.read (Elt Ideal) ((View.whole main_v34).slice ((win2 5).rect t))
        (G (V c main_arg0) (V c main_v28) (V c main_v30) (V c main_v32) (V c main_v33)) (ix2 p q)
      = G (V c main_arg0) (V c main_v28) (V c main_v30) (V c main_v32) (V c main_v33)
          (ix2 ⟨t.val * 10000 + p.val, by omega⟩ q) := by
    show G (V c main_arg0) (V c main_v28) (V c main_v30) (V c main_v32) (V c main_v33)
      (((cfg2.win 5).blk t).view.emb (ix2 p q)) = _
    refine congrArg _ (funext fun a => Fin.ext ?_)
    match a with
    | ⟨0, _⟩ => show win2_5.index t (0 : Fin 2) * 10000 + 1 * p.val = t.val * 10000 + p.val; omega
    | ⟨1, _⟩ => show win2_5.index t (1 : Fin 2) * 128 + 1 * q.val = q.val; omega
  rw [hr, hb, hx q]
  simp only [hx, ha, hu, hw]
  rfl

/-- An index of the result is in point `t`'s block iff each coordinate is in the block's range on its axis. -/
theorem mem_blk (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v34).slice (win2_5.rect t)).set ↔ _
  rw [View.set_slice_whole, Rect.mem_set_unit]
  exact Iff.rfl

/-- Every index of the result is in the block of the point its row falls to: row r belongs to point r / 10000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by show (i 0).val / 10000 < 10; omega⟩, rfl⟩
  obtain ⟨-, -, -, -, -, -, -, -, -, -, e50, e51⟩ := idx_facts t
  refine ⟨t, flush2_5 t, ?_⟩
  rw [mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 128 ≤ (i 1).val ∧ (i 1).val < win2_5.index t (1 : Fin 2) * 128 + 128
    omega

/-- THE RESULT ARRAY after the region: `G` of the arrays as the region finds them, at every index. -/
theorem array_eq (c : Dev nD) :
    (dat2 V c).arrAt 5 cfg2.N = G (V c main_arg0) (V c main_v28) (V c main_v30) (V c main_v32) (V c main_v33) :=
  (dat2 V c).arrAt_eq_of_cover 5 (G (V c main_arg0) (V c main_v28) (V c main_v30) (V c main_v32) (V c main_v33))
    (fun t _ => flushed_eq V c t) cover

end Cert.KernelIdeal.Combine

end
-- ==== Proof.Chain.lean ====
/-
  The idealized kernel's result followed back through @main to the argument arrays.

  @main is: a first stretch of host operations (the two 128-row blocks of the message weights, the message bias as a
  row, a zero row), the two projection kernels (each node table against its weight block), a middle stretch (each
  edge's two projected rows gathered and added, relu, the messages summed onto the variable nodes; the two blocks of
  the combine weights and the combine bias as a row) and the combine kernel. This module reads, boundary by
  boundary, what each buffer a later step uses holds, down to the launch memory.
-/
import proofs.«425157_j3728031613009_3_alg».proof.Proof.Gen.KernelIdeal.Frame
import proofs.«425157_j3728031613009_3_alg».proof.Proof.ProjVar
import proofs.«425157_j3728031613009_3_alg».proof.Proof.ProjFac
import proofs.«425157_j3728031613009_3_alg».proof.Proof.Combine
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- A buffer no operation of a stretch writes holds after the stretch what it held before. -/
local macro "kept_through" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## After the first stretch -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by kept_through hostOps0).trans rfl
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by kept_through hostOps0).trans rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by kept_through hostOps0).trans rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by kept_through hostOps0).trans rfl
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) by kept_through hostOps0).trans rfl
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) by kept_through hostOps0).trans rfl

/-- Rows 0 … 127 of the message weights. -/
theorem W1_v1 (c : Dev nD) : (W1 m ρ c (Proc.devRef .tc main_v1) : S128x128.Idx → Elt Ideal .bf16)
    = truncf (F := Ideal) .bf16 (extractStridedSlice S128x128 ![0, 0] (m ((c : Thread nD τ).loc main_arg5) : S257x128.Idx → Elt Ideal .f32) slices_S257x128_S128x128_0_0) bitsLt_bf16_f32 := by
  show StableHlo.after hostOps0 (W0 m ρ c) (Proc.devRef .tc main_v1) = _
  after_results <;> rfl
/-- Rows 128 … 255 of the message weights. -/
theorem W1_v3 (c : Dev nD) : (W1 m ρ c (Proc.devRef .tc main_v3) : S128x128.Idx → Elt Ideal .bf16)
    = truncf (F := Ideal) .bf16 (extractStridedSlice S128x128 ![128, 0] (m ((c : Thread nD τ).loc main_arg5) : S257x128.Idx → Elt Ideal .f32) slices_S257x128_S128x128_128_0) bitsLt_bf16_f32 := by
  show StableHlo.after hostOps0 (W0 m ρ c) (Proc.devRef .tc main_v3) = _
  after_results <;> rfl
/-- The message bias as a row. -/
theorem W1_v4 (c : Dev nD) : (W1 m ρ c (Proc.devRef .tc main_v4) : S1x128.Idx → Elt Ideal .f32)
    = shapeCast S1x128 (m ((c : Thread nD τ).loc main_arg6) : S128.Idx → Elt Ideal .f32) shapeCasts_S128_S1x128 := by
  show StableHlo.after hostOps0 (W0 m ρ c) (Proc.devRef .tc main_v4) = _
  after_results <;> rfl
/-- The zero row. -/
theorem W1_v5 (c : Dev nD) : (W1 m ρ c (Proc.devRef .tc main_v5) : S1x128.Idx → Elt Ideal .f32)
    = broadcastInDim S1x128 ![] bcast_S_S1x128 (constant (F := Ideal) S_ .f32 0x00000000#32) := by
  show StableHlo.after hostOps0 (W0 m ρ c) (Proc.devRef .tc main_v5) = _
  after_results <;> rfl

/-! ## After the two projection kernels -/

/-- The projected variable table: every variable row against rows 0 … 127 of the message weights, plus the bias. -/
abbrev projVar (c : Dev nD) : S100000x128.Idx → Elt Ideal .bf16 :=
  ProjVar.G (m ((c : Thread nD τ).loc main_arg0))
    (truncf (F := Ideal) .bf16 (extractStridedSlice S128x128 ![0, 0] (m ((c : Thread nD τ).loc main_arg5) : S257x128.Idx → Elt Ideal .f32) slices_S257x128_S128x128_0_0) bitsLt_bf16_f32)
    (shapeCast S1x128 (m ((c : Thread nD τ).loc main_arg6) : S128.Idx → Elt Ideal .f32) shapeCasts_S128_S1x128)

/-- The projected factor table: every factor row against rows 128 … 255 of the message weights, plus zero. -/
abbrev projFac (c : Dev nD) : S50000x128.Idx → Elt Ideal .bf16 :=
  ProjFac.G (m ((c : Thread nD τ).loc main_arg1))
    (truncf (F := Ideal) .bf16 (extractStridedSlice S128x128 ![128, 0] (m ((c : Thread nD τ).loc main_arg5) : S257x128.Idx → Elt Ideal .f32) slices_S257x128_S128x128_128_0) bitsLt_bf16_f32)
    (broadcastInDim S1x128 ![] bcast_S_S1x128 (constant (F := Ideal) S_ .f32 0x00000000#32))

theorem W3_v6 (c : Dev nD) : (W3 m ρ c (Proc.devRef .tc main_v6) : S100000x128.Idx → Elt Ideal .bf16) = projVar m c := by
  have h1 : W3 m ρ c (Proc.devRef .tc main_v6) = W2 m ρ c (Proc.devRef .tc main_v6) := W3_of_ne m ρ c main_v6 (by decide)
  have h2 : W2 m ρ c (Proc.devRef .tc main_v6) = (dat0 (V1 m ρ) c).arrAt 3 cfg0.N := W2_arr m ρ c 3
  have h3 := ProjVar.array_eq (V1 m ρ) c
  have e0 : V1 m ρ c main_arg0 = m ((c : Thread nD τ).loc main_arg0) := W1_arg0 m ρ c
  have e1 := W1_v1 m ρ c
  have e4 := W1_v4 m ρ c
  refine (h1.trans (h2.trans h3)).trans ?_
  show ProjVar.G (V1 m ρ c main_arg0) (W1 m ρ c (Proc.devRef .tc main_v1)) (W1 m ρ c (Proc.devRef .tc main_v4)) = _
  rw [e0, e1, e4]

theorem W3_v7 (c : Dev nD) : (W3 m ρ c (Proc.devRef .tc main_v7) : S50000x128.Idx → Elt Ideal .bf16) = projFac m c := by
  have h2 : W3 m ρ c (Proc.devRef .tc main_v7) = (dat1 (V2 m ρ) c).arrAt 3 cfg1.N := W3_arr m ρ c 3
  have h3 := ProjFac.array_eq (V2 m ρ) c
  have e0 : V2 m ρ c main_arg1 = m ((c : Thread nD τ).loc main_arg1) :=
    (W2_of_ne m ρ c main_arg1 (by decide)).trans (W1_arg1 m ρ c)
  have e1 : (V2 m ρ c main_v3 : S128x128.Idx → Elt Ideal .bf16) = _ := (W2_of_ne m ρ c main_v3 (by decide)).trans (W1_v3 m ρ c)
  have e5 : (V2 m ρ c main_v5 : S1x128.Idx → Elt Ideal .f32) = _ := (W2_of_ne m ρ c main_v5 (by decide)).trans (W1_v5 m ρ c)
  refine (h2.trans h3).trans ?_
  rw [e0, e1, e5]

theorem W3_arg0 (c : Dev nD) : W3 m ρ c (Proc.devRef .tc main_arg0) = m ((c : Thread nD τ).loc main_arg0) :=
  (W3_of_ne m ρ c main_arg0 (by decide)).trans
    (((W2_arr m ρ c 0).trans (((dat0 (V1 m ρ) c).arrAt_in 0 rfl _).trans (A_eq0 (V1 m ρ) c 0))).trans (W1_arg0 m ρ c))
theorem W3_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_arg2 m ρ c))
theorem W3_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg3 m ρ c))
theorem W3_arg7 (c : Dev nD) : W3 m ρ c (Proc.devRef .tc main_arg7) = m ((c : Thread nD τ).loc main_arg7) :=
  (W3_of_ne m ρ c main_arg7 (by decide)).trans ((W2_of_ne m ρ c main_arg7 (by decide)).trans (W1_arg7 m ρ c))
theorem W3_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_arg8 m ρ c))

/-! ## Through the middle stretch -/

/-- The start indices of the variable-side gather as a column: a negative row number wraps once by 100000. -/
abbrev colVar (c : Dev nD) : S1000000x1.Idx → BitVec 32 :=
  broadcastInDim S1000000x1 ![0] bcast_S1000000_S1000000x1_0
    (select (cmpi .slt (m ((c : Thread nD τ).loc main_arg2) : S1000000.Idx → BitVec 32) (broadcastInDim S1000000 ![] bcast_S_S1000000 (constantI S_ 32 0#32)))
      (addi (m ((c : Thread nD τ).loc main_arg2) : S1000000.Idx → BitVec 32) (broadcastInDim S1000000 ![] bcast_S_S1000000 (constantI S_ 32 100000#32)))
      (m ((c : Thread nD τ).loc main_arg2) : S1000000.Idx → BitVec 32))

/-- The start indices of the factor-side gather as a column: a negative row number wraps once by 50000. -/
abbrev colFac (c : Dev nD) : S1000000x1.Idx → BitVec 32 :=
  broadcastInDim S1000000x1 ![0] bcast_S1000000_S1000000x1_0
    (select (cmpi .slt (m ((c : Thread nD τ).loc main_arg3) : S1000000.Idx → BitVec 32) (broadcastInDim S1000000 ![] bcast_S_S1000000 (constantI S_ 32 0#32)))
      (addi (m ((c : Thread nD τ).loc main_arg3) : S1000000.Idx → BitVec 32) (broadcastInDim S1000000 ![] bcast_S_S1000000 (constantI S_ 32 50000#32)))
      (m ((c : Thread nD τ).loc main_arg3) : S1000000.Idx → BitVec 32))

/-- The messages as the kernel's program computes them: the two gathered projected rows added, then relu. -/
abbrev messages (c : Dev nD) : S1000000x128.Idx → Elt Ideal .f32 :=
  maximumf (F := Ideal)
    (addf (F := Ideal)
      (extf (F := Ideal) .f32 (Host.gather gather_S100000x128_S1000000x1_S1000000x128_1_0_n_n_0_1_1128 (projVar m c) (colVar m c)) bitsLt_bf16_f32)
      (extf (F := Ideal) .f32 (Host.gather gather_S50000x128_S1000000x1_S1000000x128_1_0_n_n_0_1_1128 (projFac m c) (colFac m c)) bitsLt_bf16_f32))
    (broadcastInDim S1000000x128 ![] bcast_S_S1000000x128 (constant (F := Ideal) S_ .f32 0x00000000#32))

set_option maxHeartbeats 1000000 in
theorem W4_v24 (c : Dev nD) : (W4 m ρ c (Proc.devRef .tc main_v24) : S1000000x128.Idx → Elt Ideal .f32)
    = addf (F := Ideal)
      (extf (F := Ideal) .f32 (Host.gather gather_S100000x128_S1000000x1_S1000000x128_1_0_n_n_0_1_1128 (projVar m c) (colVar m c)) bitsLt_bf16_f32)
      (extf (F := Ideal) .f32 (Host.gather gather_S50000x128_S1000000x1_S1000000x128_1_0_n_n_0_1_1128 (projFac m c) (colFac m c)) bitsLt_bf16_f32) := by
  have h6 := W3_v6 m ρ c
  have h7 := W3_v7 m ρ c
  have h2 := W3_arg2 m ρ c
  have h3 := W3_arg3 m ρ c
  show StableHlo.after hostOps2 (W3 m ρ c) (Proc.devRef .tc main_v24) = _
  generalize W3 m ρ c = Wb at h6 h7 h2 h3 ⊢
  after_results_simp
  rw [h6, h7, h2, h3]

theorem W5_v25 (c : Dev nD) : (W5 m ρ c (Proc.devRef .tc main_v25) : S1000000x128.Idx → Elt Ideal .f32) = messages m c := by
  have h24 := W4_v24 m ρ c
  show StableHlo.after hostOps2_1 (W4 m ρ c) (Proc.devRef .tc main_v25) = _
  generalize W4 m ρ c = Wb at h24 ⊢
  after_results
  rw [h24]
  rfl

/-! ## At the combine kernel's entry -/

theorem W5_arg2 (c : Dev nD) : W5 m ρ c (Proc.devRef .tc main_arg2) = m ((c : Thread nD τ).loc main_arg2) :=
  (show W5 m ρ c (Proc.devRef .tc main_arg2) = W4 m ρ c (Proc.devRef .tc main_arg2) by kept_through hostOps2_1).trans
    ((show W4 m ρ c (Proc.devRef .tc main_arg2) = W3 m ρ c (Proc.devRef .tc main_arg2) by kept_through hostOps2).trans (W3_arg2 m ρ c))
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) by kept_through hostOps2_1).trans
    ((show W4 m ρ c (Proc.devRef .tc main_arg7) = W3 m ρ c (Proc.devRef .tc main_arg7) by kept_through hostOps2).trans (W3_arg7 m ρ c))
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) by kept_through hostOps2_1).trans
    ((show W4 m ρ c (Proc.devRef .tc main_arg8) = W3 m ρ c (Proc.devRef .tc main_arg8) by kept_through hostOps2).trans (W3_arg8 m ρ c))
theorem W6_arg0 (c : Dev nD) : W6 m ρ c (Proc.devRef .tc main_arg0) = m ((c : Thread nD τ).loc main_arg0) :=
  (show W6 m ρ c (Proc.devRef .tc main_arg0) = W5 m ρ c (Proc.devRef .tc main_arg0) by kept_through hostOps2_2).trans
    ((show W5 m ρ c (Proc.devRef .tc main_arg0) = W4 m ρ c (Proc.devRef .tc main_arg0) by kept_through hostOps2_1).trans
      ((show W4 m ρ c (Proc.devRef .tc main_arg0) = W3 m ρ c (Proc.devRef .tc main_arg0) by kept_through hostOps2).trans (W3_arg0 m ρ c)))

/-- The messages summed onto the variable nodes, as the kernel's program computes them: the aggregation of `msgs`
    from the zero table, each edge's row added to the node its start index names. -/
abbrev aggregate (c : Dev nD) (msgs : S1000000x128.Idx → Elt Ideal .f32) : S100000x128.Idx → Elt Ideal .f32 :=
  Host.scatterAdd scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 (m ((c : Thread nD τ).loc main_arg2) : S1000000.Idx → BitVec 32))
    msgs

theorem W6_v28 (c : Dev nD) : (W6 m ρ c (Proc.devRef .tc main_v28) : S100000x128.Idx → Elt Ideal .f32)
    = aggregate m c (messages m c) := by
  have h25 := W5_v25 m ρ c
  have h2 := W5_arg2 m ρ c
  show StableHlo.after hostOps2_2 (W5 m ρ c) (Proc.devRef .tc main_v28) = _
  generalize W5 m ρ c = Wb at h25 h2 ⊢
  after_results
  rw [h25, h2]

/-- Rows 0 … 127 of the combine weights. -/
theorem W6_v30 (c : Dev nD) : (W6 m ρ c (Proc.devRef .tc main_v30) : S128x128.Idx → Elt Ideal .bf16)
    = truncf (F := Ideal) .bf16 (extractStridedSlice S128x128 ![0, 0] (m ((c : Thread nD τ).loc main_arg7) : S256x128.Idx → Elt Ideal .f32) slices_S256x128_S128x128_0_0) bitsLt_bf16_f32 := by
  have h7 := W5_arg7 m ρ c
  show StableHlo.after hostOps2_2 (W5 m ρ c) (Proc.devRef .tc main_v30) = _
  generalize W5 m ρ c = Wb at h7 ⊢
  after_results
  rw [h7]
/-- Rows 128 … 255 of the combine weights. -/
theorem W6_v32 (c : Dev nD) : (W6 m ρ c (Proc.devRef .tc main_v32) : S128x128.Idx → Elt Ideal .bf16)
    = truncf (F := Ideal) .bf16 (extractStridedSlice S128x128 ![128, 0] (m ((c : Thread nD τ).loc main_arg7) : S256x128.Idx → Elt Ideal .f32) slices_S256x128_S128x128_128_0) bitsLt_bf16_f32 := by
  have h7 := W5_arg7 m ρ c
  show StableHlo.after hostOps2_2 (W5 m ρ c) (Proc.devRef .tc main_v32) = _
  generalize W5 m ρ c = Wb at h7 ⊢
  after_results
  rw [h7]
/-- The combine bias as a row. -/
theorem W6_v33 (c : Dev nD) : (W6 m ρ c (Proc.devRef .tc main_v33) : S1x128.Idx → Elt Ideal .f32)
    = shapeCast S1x128 (m ((c : Thread nD τ).loc main_arg8) : S128.Idx → Elt Ideal .f32) shapeCasts_S128_S1x128 := by
  have h8 := W5_arg8 m ρ c
  show StableHlo.after hostOps2_2 (W5 m ρ c) (Proc.devRef .tc main_v33) = _
  generalize W5 m ρ c = Wb at h8 ⊢
  after_results
  rw [h8]
  rfl

/-! ## The result buffer -/

/-- THE RESULT: the combine kernel's function of the node table, the aggregated messages, the two blocks of the
    combine weights and the combine bias. -/
theorem result_fold (c : Dev nD) : (W7 m ρ c (Proc.devRef .tc main_v34) : S100000x128.Idx → Elt Ideal .f32)
    = Combine.G (m ((c : Thread nD τ).loc main_arg0)) (aggregate m c (messages m c))
        (truncf (F := Ideal) .bf16 (extractStridedSlice S128x128 ![0, 0] (m ((c : Thread nD τ).loc main_arg7) : S256x128.Idx → Elt Ideal .f32) slices_S256x128_S128x128_0_0) bitsLt_bf16_f32)
        (truncf (F := Ideal) .bf16 (extractStridedSlice S128x128 ![128, 0] (m ((c : Thread nD τ).loc main_arg7) : S256x128.Idx → Elt Ideal .f32) slices_S256x128_S128x128_128_0) bitsLt_bf16_f32)
        (shapeCast S1x128 (m ((c : Thread nD τ).loc main_arg8) : S128.Idx → Elt Ideal .f32) shapeCasts_S128_S1x128) := by
  have h : W7 m ρ c (Proc.devRef .tc main_v34) = (dat2 (V6 m ρ) c).arrAt 5 cfg2.N := W7_arr m ρ c 5
  refine (h.trans (Combine.array_eq (V6 m ρ) c)).trans ?_
  show Combine.G (W6 m ρ c (Proc.devRef .tc main_arg0)) (W6 m ρ c (Proc.devRef .tc main_v28))
    (W6 m ρ c (Proc.devRef .tc main_v30)) (W6 m ρ c (Proc.devRef .tc main_v32)) (W6 m ρ c (Proc.devRef .tc main_v33)) = _
  rw [W6_arg0 m ρ c, W6_v28 m ρ c, W6_v30 m ρ c, W6_v32 m ρ c, W6_v33 m ρ c]

end Cert.KernelIdeal.Chain

end
-- ==== Proof.Spec.lean ====
/-
  One round of message passing on a bipartite graph of 100000 variable nodes and 50000 factor nodes with
  1000000 edges and 128 features, as ONE function of the argument arrays, entry by entry, on the extended reals.

  An edge e joins variable row `rowOf iv e` and factor row `rowOf jf e`: the edge's start index read as a signed
  integer and clamped into the table's rows. Its message is
      relu (x · W[0:128] + y · W[128:256] + b),
  x the variable's row and y the factor's. The messages are then summed onto nodes by an aggregation that this
  module leaves abstract (both programs apply the same one to the same messages), and a node's new value is
      v + relu (v · C[0:128] + a · C[128:256] + c),
  v the node's row and a its aggregated row.

  The two laws below split a dot product with a joined row into the dot products with its pieces: a sum over
  257 = 128 + 128 + 1 and over 256 = 128 + 128 terms. They are plain regroupings of a finite sum in a commutative
  monoid, so they hold at the infinities too.
-/
import Idealize.ShloMosaic.PureOps.Ideal.Laws
import Idealize.ShloMosaic.Lib.ValueIdx

noncomputable section

open scoped BigOperators

namespace Cert.MsgSpec

open Idealize.ShloMosaic Idealize.ShloMosaic.ValueIdx

/-- The table row an edge reads: its start index as a signed integer, clamped into `[0, R − 1]`. -/
def rowOf (R : Nat) (hR : 0 < R) (iv : IVec ⟨2, ![1000000, 1]⟩ 32) (e : Fin 1000000) : Fin R :=
  ⟨min (iv (ix2 e ⟨0, Nat.one_pos⟩)).toInt.toNat (R - 1), by omega⟩

/-- Row `r` of `X` against column `d` of the 128 rows of `W` from row `off` on. -/
def dotRows {R M : Nat} {φ ψ : FTy} (X : FVec Ideal ⟨2, ![R, 128]⟩ φ) (W : FVec Ideal ⟨2, ![M, 128]⟩ ψ)
    (off : Nat) (h : off + 128 ≤ M) (r : Fin R) (d : Fin 128) : EReal :=
  ∑ k : Fin 128, X (ix2 r k) * W (ix2 ⟨off + k.val, by omega⟩ d)

/-- The message of edge `e`, feature `d`. -/
def msgAt (var : FVec Ideal ⟨2, ![100000, 128]⟩ .f32) (fac : FVec Ideal ⟨2, ![50000, 128]⟩ .f32)
    (iv jf : IVec ⟨2, ![1000000, 1]⟩ 32) (Wm : FVec Ideal ⟨2, ![257, 128]⟩ .f32) (bm : FVec Ideal ⟨1, ![128]⟩ .f32)
    (e : Fin 1000000) (d : Fin 128) : EReal :=
  max (dotRows var Wm 0 (by omega) (rowOf 100000 (by omega) iv e) d
        + dotRows fac Wm 128 (by omega) (rowOf 50000 (by omega) jf e) d + bm (ix1 d)) 0

/-- All messages, as an array. -/
def msg (var : FVec Ideal ⟨2, ![100000, 128]⟩ .f32) (fac : FVec Ideal ⟨2, ![50000, 128]⟩ .f32)
    (iv jf : IVec ⟨2, ![1000000, 1]⟩ 32) (Wm : FVec Ideal ⟨2, ![257, 128]⟩ .f32) (bm : FVec Ideal ⟨1, ![128]⟩ .f32) :
    FVec Ideal ⟨2, ![1000000, 128]⟩ .f32 :=
  fun j => msgAt var fac iv jf Wm bm ⟨(j 0).val, idx2_lt0 j⟩ ⟨(j 1).val, idx2_lt1 j⟩

theorem msg_apply (var : FVec Ideal ⟨2, ![100000, 128]⟩ .f32) (fac : FVec Ideal ⟨2, ![50000, 128]⟩ .f32)
    (iv jf : IVec ⟨2, ![1000000, 1]⟩ 32) (Wm : FVec Ideal ⟨2, ![257, 128]⟩ .f32) (bm : FVec Ideal ⟨1, ![128]⟩ .f32)
    (e : Fin 1000000) (d : Fin 128) : msg var fac iv jf Wm bm (ix2 e d) = msgAt var fac iv jf Wm bm e d := rfl

/-- A node's new value at feature `d`, from its row and its aggregated row. -/
def outAt (var aggr : FVec Ideal ⟨2, ![100000, 128]⟩ .f32) (Wc : FVec Ideal ⟨2, ![256, 128]⟩ .f32)
    (bc : FVec Ideal ⟨1, ![128]⟩ .f32) (n : Fin 100000) (d : Fin 128) : EReal :=
  var (ix2 n d) + max (dotRows var Wc 0 (by omega) n d + dotRows aggr Wc 128 (by omega) n d + bc (ix1 d)) 0

/-- All nodes' new values, as an array. -/
def out (var aggr : FVec Ideal ⟨2, ![100000, 128]⟩ .f32) (Wc : FVec Ideal ⟨2, ![256, 128]⟩ .f32)
    (bc : FVec Ideal ⟨1, ![128]⟩ .f32) : FVec Ideal ⟨2, ![100000, 128]⟩ .f32 :=
  fun j => outAt var aggr Wc bc ⟨(j 0).val, idx2_lt0 j⟩ ⟨(j 1).val, idx2_lt1 j⟩

theorem out_apply (var aggr : FVec Ideal ⟨2, ![100000, 128]⟩ .f32) (Wc : FVec Ideal ⟨2, ![256, 128]⟩ .f32)
    (bc : FVec Ideal ⟨1, ![128]⟩ .f32) (n : Fin 100000) (d : Fin 128) :
    out var aggr Wc bc (ix2 n d) = outAt var aggr Wc bc n d := rfl

/-! ## Splitting a sum over a joined row -/

/-- A sum over 256 = 128 + 128 terms is the sum of its two halves. -/
theorem sum_256 (f : Fin 256 → EReal) :
    ∑ k : Fin 256, f k = (∑ k : Fin 128, f ⟨k.val, by omega⟩) + ∑ k : Fin 128, f ⟨128 + k.val, by omega⟩ :=
  Fin.sum_univ_add (a := 128) (b := 128) f

/-- A sum over 257 = 128 + 128 + 1 terms is the sum of its two halves and its last term. -/
theorem sum_257 (f : Fin 257 → EReal) :
    ∑ k : Fin 257, f k
      = (∑ k : Fin 128, f ⟨k.val, by omega⟩) + (∑ k : Fin 128, f ⟨128 + k.val, by omega⟩) + f ⟨256, by omega⟩ := by
  rw [Fin.sum_univ_castSucc (n := 256) f, sum_256 fun k => f k.castSucc]
  rfl

end Cert.MsgSpec

end
-- ==== Proof.LibTakeRows.lean ====
/-
  Rows of a table taken by a column of row numbers, read at an entry.

  jnp's `table[idx]` for a rank-2 `table : [R, C]` and an integer vector `idx : [n]` lowers to a
  `stablehlo.gather` over the indices as a column `[n, 1]`: offset_dims `[1]`, collapsed_slice_dims `[0]`,
  start_index_map `[0]`, index_vector_dim 1, slice_sizes `[1, C]`. Result entry (e, k) is the table's entry
  (row, k), where row is the start index `idx[e, 0]` read as a signed integer and clamped into `[0, R − 1]`,
  as StableHLO's gather clamps every start index.
-/
import Idealize.ShloMosaic.Lib.ValueIdx

noncomputable section

namespace Idealize.ShloMosaic.TakeRows

open Idealize.ShloMosaic Idealize.ShloMosaic.ValueIdx

variable {α : Type}

/-- Those dimension numbers for a table `[R, C]`, start indices `[n, 1]` and a result `[n, C]`; their conditions
    `wf` are decided on a program's literal shapes. -/
abbrev rowDims (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER READ AT (e, k): the table at row `idx[e, 0]`, read signed and clamped into `[0, R − 1]`, column k. -/
theorem gather_rows_apply {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowDims R C n wf) x idx (ix2 e k)
      = x (ix2 ⟨min (idx (ix2 e ⟨0, Nat.one_pos⟩)).toInt.toNat (R - 1), by omega⟩ k) := by
  unfold Host.gather
  congr 1
  funext a
  refine Fin.ext ?_
  show (rowDims R C n wf).start (ix2 e k) idx a + (rowDims R C n wf).batchCoord (ix2 e k) a
    + (rowDims R C n wf).offCoord (ix2 e k) a = _
  have h0 : (rowDims R C n wf).start (ix2 e k) idx (0 : Fin 2) + (rowDims R C n wf).batchCoord (ix2 e k) (0 : Fin 2)
      + (rowDims R C n wf).offCoord (ix2 e k) (0 : Fin 2) = min (idx (ix2 e ⟨0, Nat.one_pos⟩)).toInt.toNat (R - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C n wf).startIndexMap from List.mem_singleton.mpr rfl)]
    have hsi : (rowDims R C n wf).siIdx (ix2 e k) ⟨List.idxOf (0 : Fin 2) (rowDims R C n wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims R C n wf).start (ix2 e k) idx (1 : Fin 2) + (rowDims R C n wf).batchCoord (ix2 e k) (1 : Fin 2)
      + (rowDims R C n wf).offCoord (ix2 e k) (1 : Fin 2) = k.val := by
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl
  match a with
  | ⟨0, _⟩ => exact h0
  | ⟨1, _⟩ => exact h1

end Idealize.ShloMosaic.TakeRows

end
-- ==== Proof.KernelValue.lean ====
/-
  The idealized kernel's result is the specification's.

  The kernel's program projects each node table once (a node's row against a 128-row block of the message weights,
  the bias added on the variable side, zero on the factor side), and an edge's message is the relu of the sum of the
  two projected rows the edge's start indices name. Gathering a row of a projected table is projecting the gathered
  row, because the gather takes whole rows; so the message is
      relu ((x · W[0:128] + b) + (y · W[128:256] + 0)) = relu (x · W[0:128] + y · W[128:256] + b),
  by `a + 0 = a` and commutativity and associativity of addition on the extended reals: no finiteness is used. The
  node update is the specification's term for term, the two weight blocks being rows 0 … 127 and 128 … 255 of the
  combine weights.
-/
import proofs.«425157_j3728031613009_3_alg».proof.Proof.Chain
import proofs.«425157_j3728031613009_3_alg».proof.Proof.Spec
import proofs.«425157_j3728031613009_3_alg».proof.Proof.LibTakeRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bridge

open Cert.KernelIdeal Cert.KernelIdeal.Gen Cert.KernelIdeal.Chain
open Idealize.ShloMosaic Idealize.ShloMosaic.TcCoe Idealize.ShloMosaic.ValueIdx Idealize.SL.Sem

/-- Both gathers take whole rows of a rank-2 table by a column of start indices. -/
theorem gatherVar_rows : gather_S100000x128_S1000000x1_S1000000x128_1_0_n_n_0_1_1128
    = TakeRows.rowDims 100000 128 1000000 Facts₀.gather_S100000x128_S1000000x1_S1000000x128_1_0_n_n_0_1_1128_wf := rfl
theorem gatherFac_rows : gather_S50000x128_S1000000x1_S1000000x128_1_0_n_n_0_1_1128
    = TakeRows.rowDims 50000 128 1000000 Facts₀.gather_S50000x128_S1000000x1_S1000000x128_1_0_n_n_0_1_1128_wf := rfl

/-! ## The weight blocks, the bias rows and the zeros at an entry -/

theorem msgW_lo_at (W : S257x128.Idx → Elt Ideal .f32) (k d : Fin 128) :
    truncf (F := Ideal) .bf16 (extractStridedSlice S128x128 ![0, 0] W slices_S257x128_S128x128_0_0) bitsLt_bf16_f32 (ix2 k d)
      = W (ix2 ⟨0 + k.val, by omega⟩ d) :=
  slice2_axis0_apply 0 W slices_S257x128_S128x128_0_0 k d ⟨0 + k.val, by omega⟩ rfl
theorem msgW_hi_at (W : S257x128.Idx → Elt Ideal .f32) (k d : Fin 128) :
    truncf (F := Ideal) .bf16 (extractStridedSlice S128x128 ![128, 0] W slices_S257x128_S128x128_128_0) bitsLt_bf16_f32 (ix2 k d)
      = W (ix2 ⟨128 + k.val, by omega⟩ d) :=
  slice2_axis0_apply 128 W slices_S257x128_S128x128_128_0 k d ⟨128 + k.val, by omega⟩ rfl
theorem combW_lo_at (W : S256x128.Idx → Elt Ideal .f32) (k d : Fin 128) :
    truncf (F := Ideal) .bf16 (extractStridedSlice S128x128 ![0, 0] W slices_S256x128_S128x128_0_0) bitsLt_bf16_f32 (ix2 k d)
      = W (ix2 ⟨0 + k.val, by omega⟩ d) :=
  slice2_axis0_apply 0 W slices_S256x128_S128x128_0_0 k d ⟨0 + k.val, by omega⟩ rfl
theorem combW_hi_at (W : S256x128.Idx → Elt Ideal .f32) (k d : Fin 128) :
    truncf (F := Ideal) .bf16 (extractStridedSlice S128x128 ![128, 0] W slices_S256x128_S128x128_128_0) bitsLt_bf16_f32 (ix2 k d)
      = W (ix2 ⟨128 + k.val, by omega⟩ d) :=
  slice2_axis0_apply 128 W slices_S256x128_S128x128_128_0 k d ⟨128 + k.val, by omega⟩ rfl

theorem bias_row_at (b : S128.Idx → Elt Ideal .f32) (d : Fin 128) :
    shapeCast S1x128 b shapeCasts_S128_S1x128 (ix2 (0 : Fin 1) d) = b (ix1 d) :=
  shapeCast_a_1a_apply b shapeCasts_S128_S1x128 0 d

theorem zero_row_at (d : Fin 128) :
    broadcastInDim S1x128 ![] bcast_S_S1x128 (constant (F := Ideal) S_ .f32 0x00000000#32) (ix2 (0 : Fin 1) d) = 0 :=
  (broadcastInDim_apply _ bcast_S_S1x128 _ _ (fun a => a.elim0) (fun a => a.elim0)).trans Ideal.ofBits_zero_f32

theorem zero_msgs_at (e : Fin 1000000) (d : Fin 128) :
    broadcastInDim S1000000x128 ![] bcast_S_S1000000x128 (constant (F := Ideal) S_ .f32 0x00000000#32) (ix2 e d) = 0 :=
  (broadcastInDim_apply _ bcast_S_S1000000x128 _ _ (fun a => a.elim0) (fun a => a.elim0)).trans Ideal.ofBits_zero_f32

variable (m : (ℓ : Loc nD τ sig) → Buf (Elt Ideal) ℓ) (ρ : Dev nD → PrngReg)

/-! ## The argument arrays, at their literal types -/

abbrev aVar (c : Dev nD) : FVec Ideal ⟨2, ![100000, 128]⟩ .f32 := m ((c : Thread nD τ).loc main_arg0)
abbrev aFac (c : Dev nD) : FVec Ideal ⟨2, ![50000, 128]⟩ .f32 := m ((c : Thread nD τ).loc main_arg1)
abbrev aWm (c : Dev nD) : FVec Ideal ⟨2, ![257, 128]⟩ .f32 := m ((c : Thread nD τ).loc main_arg5)
abbrev aBm (c : Dev nD) : FVec Ideal ⟨1, ![128]⟩ .f32 := m ((c : Thread nD τ).loc main_arg6)
abbrev aWc (c : Dev nD) : FVec Ideal ⟨2, ![256, 128]⟩ .f32 := m ((c : Thread nD τ).loc main_arg7)
abbrev aBc (c : Dev nD) : FVec Ideal ⟨1, ![128]⟩ .f32 := m ((c : Thread nD τ).loc main_arg8)

/-! ## The three kernels' functions at an entry -/

theorem projVarG_at (X : S100000x128.Idx → Elt Ideal .f32) (W : S128x128.Idx → Elt Ideal .bf16) (b : S1x128.Idx → Elt Ideal .f32)
    (r : Fin 100000) (d : Fin 128) :
    ProjVar.G X W b (ix2 r d) = (∑ k : Fin 128, X (ix2 r k) * W (ix2 k d)) + b (ix2 (0 : Fin 1) d) := rfl
theorem projFacG_at (X : S50000x128.Idx → Elt Ideal .f32) (W : S128x128.Idx → Elt Ideal .bf16) (b : S1x128.Idx → Elt Ideal .f32)
    (r : Fin 50000) (d : Fin 128) :
    ProjFac.G X W b (ix2 r d) = (∑ k : Fin 128, X (ix2 r k) * W (ix2 k d)) + b (ix2 (0 : Fin 1) d) := rfl
theorem combineG_at (X A : S100000x128.Idx → Elt Ideal .f32) (U W : S128x128.Idx → Elt Ideal .bf16) (b : S1x128.Idx → Elt Ideal .f32)
    (n : Fin 100000) (d : Fin 128) :
    Combine.G X A U W b (ix2 n d)
      = X (ix2 n d) + max ((∑ k : Fin 128, X (ix2 n k) * U (ix2 k d)) + (∑ k : Fin 128, A (ix2 n k) * W (ix2 k d))
          + b (ix2 (0 : Fin 1) d)) 0 := rfl

/-! ## The projected tables at an entry -/

theorem projVar_at (c : Dev nD) (r : Fin 100000) (d : Fin 128) :
    projVar m c (ix2 r d) = MsgSpec.dotRows (aVar m c) (aWm m c) 0 (by omega) r d + aBm m c (ix1 d) := by
  show ProjVar.G (aVar m c) _ _ (ix2 r d) = _
  rw [projVarG_at, bias_row_at]
  simp only [msgW_lo_at]
  rfl

theorem projFac_at (c : Dev nD) (r : Fin 50000) (d : Fin 128) :
    projFac m c (ix2 r d) = MsgSpec.dotRows (aFac m c) (aWm m c) 128 (by omega) r d + 0 := by
  show ProjFac.G (aFac m c) _ _ (ix2 r d) = _
  rw [projFacG_at, zero_row_at]
  simp only [msgW_hi_at]
  rfl

/-! ## The messages -/

/-- The kernel's message of edge `e`, feature `d`, is the specification's. -/
theorem messages_at (c : Dev nD) (e : Fin 1000000) (d : Fin 128) :
    messages m c (ix2 e d)
      = MsgSpec.msgAt (aVar m c) (aFac m c) (colVar m c) (colFac m c) (aWm m c) (aBm m c) e d := by
  have hV : Host.gather gather_S100000x128_S1000000x1_S1000000x128_1_0_n_n_0_1_1128 (projVar m c) (colVar m c) (ix2 e d)
      = projVar m c (ix2 (MsgSpec.rowOf 100000 (by omega) (colVar m c) e) d) := by
    rw [gatherVar_rows]
    exact TakeRows.gather_rows_apply (by omega) _ (projVar m c) (colVar m c) e d
  have hF : Host.gather gather_S50000x128_S1000000x1_S1000000x128_1_0_n_n_0_1_1128 (projFac m c) (colFac m c) (ix2 e d)
      = projFac m c (ix2 (MsgSpec.rowOf 50000 (by omega) (colFac m c) e) d) := by
    rw [gatherFac_rows]
    exact TakeRows.gather_rows_apply (by omega) _ (projFac m c) (colFac m c) e d
  show max (Host.gather gather_S100000x128_S1000000x1_S1000000x128_1_0_n_n_0_1_1128 (projVar m c) (colVar m c) (ix2 e d)
        + Host.gather gather_S50000x128_S1000000x1_S1000000x128_1_0_n_n_0_1_1128 (projFac m c) (colFac m c) (ix2 e d))
      (broadcastInDim S1000000x128 ![] bcast_S_S1000000x128 (constant (F := Ideal) S_ .f32 0x00000000#32) (ix2 e d)) = _
  rw [hV, hF, zero_msgs_at, projVar_at, projFac_at]
  unfold MsgSpec.msgAt
  rw [add_zero, add_right_comm]

theorem messages_eq (c : Dev nD) :
    messages m c = MsgSpec.msg (aVar m c) (aFac m c) (colVar m c) (colFac m c) (aWm m c) (aBm m c) := by
  funext j
  obtain ⟨e, d, rfl⟩ : ∃ (e : Fin 1000000) (d : Fin 128), j = ix2 e d := ⟨j 0, j 1, eq_ix2 j⟩
  exact messages_at m c e d

/-! ## The result -/

/-- THE KERNEL'S RESULT is the specification's node update of the aggregated specification messages. -/
theorem result_eq (c : Dev nD) :
    (W7 m ρ c (Proc.devRef .tc main_v34) : S100000x128.Idx → Elt Ideal .f32)
      = MsgSpec.out (aVar m c)
          (aggregate m c (MsgSpec.msg (aVar m c) (aFac m c) (colVar m c) (colFac m c) (aWm m c) (aBm m c)))
          (aWc m c) (aBc m c) := by
  rw [result_fold m ρ c, messages_eq m c]
  funext j
  obtain ⟨n, d, rfl⟩ : ∃ (n : Fin 100000) (d : Fin 128), j = ix2 n d := ⟨j 0, j 1, eq_ix2 j⟩
  rw [combineG_at, MsgSpec.out_apply, bias_row_at]
  unfold MsgSpec.outAt MsgSpec.dotRows
  simp only [combW_lo_at, combW_hi_at]

end Cert.KernelIdeal.Bridge

end
-- ==== Proof.RefValue.lean ====
/-
  The reference's result, read one operation at a time.

  An edge's joined row is (variable row | factor row | 0): 128 + 128 + 1 entries. Its dot product with a column of
  the 257-row weight table therefore splits into the variable row against rows 0..127, the factor row against rows
  128..255, and a last term 0 * w = 0. Adding the bias and taking the maximum with 0 gives the specification's message.
  A node's joined row is (its own row | its aggregated row): 128 + 128 entries, and its dot product with a column of
  the 256-row table splits the same way; adding the bias, taking the maximum with 0 and adding the node's own entry
  gives the specification's node update. The aggregation itself is never opened: both sides apply the same one to
  the same messages. Only regrouping of finite sums of extended reals is used, so nothing depends on finiteness.
-/
import proofs.«425157_j3728031613009_3_alg».proof.Proof.Gen.ReferenceIdeal.Run
import proofs.«425157_j3728031613009_3_alg».proof.Proof.Gen.ReferenceIdeal.Read
import proofs.«425157_j3728031613009_3_alg».proof.Proof.Spec
import proofs.«425157_j3728031613009_3_alg».proof.Proof.LibTakeRows
import Idealize.ShloMosaic.Lib.Pipeline.Value
import Idealize.ShloMosaic.Lib.ValueIdx
import Idealize.ShloMosaic.PureOps.Ideal.Laws

noncomputable section
open scoped BigOperators
namespace Cert.ReferenceIdeal.RefValue
open Cert.ReferenceIdeal Cert.ReferenceIdeal.Gen Cert.ReferenceIdeal.Read Idealize.ShloMosaic Idealize.ShloMosaic.ValueIdx

/-- The gather of variable rows uses the row-taking dimension numbers. -/
theorem gather_var_is_row_taking :
    gather_S100000x128_S1000000x1_S1000000x128_1_0_n_n_0_1_1128
      = TakeRows.rowDims 100000 128 1000000 Facts₀.gather_S100000x128_S1000000x1_S1000000x128_1_0_n_n_0_1_1128_wf := rfl

/-- The gather of factor rows uses the row-taking dimension numbers. -/
theorem gather_fac_is_row_taking :
    gather_S50000x128_S1000000x1_S1000000x128_1_0_n_n_0_1_1128
      = TakeRows.rowDims 50000 128 1000000 Facts₀.gather_S50000x128_S1000000x1_S1000000x128_1_0_n_n_0_1_1128_wf := rfl

/-- The gathered variable rows at edge `e`, feature `k`: the variable table at the edge's clamped row. -/
theorem gathered_var_row_at (x0 : (⟨S100000x128, .f32⟩ : BufTy).Contents (Elt Ideal)) (x2 : (⟨S1000000, .i32⟩ : BufTy).Contents (Elt Ideal))
    (e : Fin 1000000) (k : Fin 128) :
    val_main_v6 (F := Ideal) x0 x2 (ix2 e k)
      = x0 (ix2 (Cert.MsgSpec.rowOf 100000 (by omega) (val_main_v5 (F := Ideal) x2) e) k) := by
  unfold val_main_v6
  rw [gather_var_is_row_taking]
  exact TakeRows.gather_rows_apply (by omega) _ x0 _ e k

/-- The gathered factor rows at edge `e`, feature `k`: the factor table at the edge's clamped row. -/
theorem gathered_fac_row_at (x1 : (⟨S50000x128, .f32⟩ : BufTy).Contents (Elt Ideal)) (x3 : (⟨S1000000, .i32⟩ : BufTy).Contents (Elt Ideal))
    (e : Fin 1000000) (k : Fin 128) :
    val_main_v13 (F := Ideal) x1 x3 (ix2 e k)
      = x1 (ix2 (Cert.MsgSpec.rowOf 50000 (by omega) (val_main_v12 (F := Ideal) x3) e) k) := by
  unfold val_main_v13
  rw [gather_fac_is_row_taking]
  exact TakeRows.gather_rows_apply (by omega) _ x1 _ e k

/-- The appended column is zero. -/
theorem appended_column_zero (i : S1000000x1.Idx) : val_main_v15 (F := Ideal) i = 0 := by
  rw [val_main_v15_apply, val_main_v14_apply, val_main_cst_apply]
  exact Ideal.ofBits_zero_f32

/-- The joined row at a column below 128 is the gathered variable row. -/
theorem joined_row_var_part (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (e : Fin 1000000) (k : Fin 128) :
    val_main_v16 (F := Ideal) x0 x1 x2 x3 (ix2 e ⟨k.val, by omega⟩)
      = x0 (ix2 (Cert.MsgSpec.rowOf 100000 (by omega) (val_main_v5 (F := Ideal) x2) e) k) := by
  rw [← gathered_var_row_at x0 x2 e k]
  unfold val_main_v16
  generalize val_main_v6 (F := Ideal) x0 x2 = y0
  generalize val_main_v13 (F := Ideal) x1 x3 = y1
  generalize val_main_v15 (F := Ideal) = y2
  refine concatenate_apply_piece (t := S1000000x257) (1 : Fin 2) [⟨S1000000x128, y0⟩, ⟨S1000000x128, y1⟩, ⟨S1000000x1, y2⟩] _ _ 0 (by show (0 : Nat) < 3; omega) S1000000x128 y0 rfl rfl 0 rfl (ix2 e k) ?_ ?_
  · intro b hb
    match b with
    | ⟨0, _⟩ => rfl
    | ⟨1, _⟩ => exact absurd rfl hb
  · show 0 + k.val = k.val
    omega

/-- The joined row at a column from 128 to 255 is the gathered factor row. -/
theorem joined_row_fac_part (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (e : Fin 1000000) (k : Fin 128) :
    val_main_v16 (F := Ideal) x0 x1 x2 x3 (ix2 e ⟨128 + k.val, by omega⟩)
      = x1 (ix2 (Cert.MsgSpec.rowOf 50000 (by omega) (val_main_v12 (F := Ideal) x3) e) k) := by
  rw [← gathered_fac_row_at x1 x3 e k]
  unfold val_main_v16
  generalize val_main_v6 (F := Ideal) x0 x2 = y0
  generalize val_main_v13 (F := Ideal) x1 x3 = y1
  generalize val_main_v15 (F := Ideal) = y2
  refine concatenate_apply_piece (t := S1000000x257) (1 : Fin 2) [⟨S1000000x128, y0⟩, ⟨S1000000x128, y1⟩, ⟨S1000000x1, y2⟩] _ _ 1 (by show (1 : Nat) < 3; omega) S1000000x128 y1 rfl rfl 128 rfl (ix2 e k) ?_ ?_
  · intro b hb
    match b with
    | ⟨0, _⟩ => rfl
    | ⟨1, _⟩ => exact absurd rfl hb
  · rfl

/-- The joined row's last column is zero. -/
theorem joined_row_last_zero (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (e : Fin 1000000) :
    val_main_v16 (F := Ideal) x0 x1 x2 x3 (ix2 e ⟨256, by omega⟩) = 0 := by
  rw [← appended_column_zero (ix2 e ⟨0, Nat.one_pos⟩)]
  unfold val_main_v16
  generalize val_main_v6 (F := Ideal) x0 x2 = y0
  generalize val_main_v13 (F := Ideal) x1 x3 = y1
  generalize val_main_v15 (F := Ideal) = y2
  refine concatenate_apply_piece (t := S1000000x257) (1 : Fin 2) [⟨S1000000x128, y0⟩, ⟨S1000000x128, y1⟩, ⟨S1000000x1, y2⟩] _ _ 2 (by show (2 : Nat) < 3; omega) S1000000x1 y2 rfl rfl 256 rfl (ix2 e ⟨0, Nat.one_pos⟩) ?_ ?_
  · intro b hb
    match b with
    | ⟨0, _⟩ => rfl
    | ⟨1, _⟩ => exact absurd rfl hb
  · rfl

/-- The 257-term dot product of a joined row is the two 128-term dot products of its pieces. -/
theorem message_dot_split (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (x5 : (⟨S257x128, .f32⟩ : BufTy).Contents (Elt Ideal))
    (e : Fin 1000000) (d : Fin 128) :
    val_main_v17 (F := Ideal) x0 x1 x2 x3 x5 (ix2 e d)
      = Cert.MsgSpec.dotRows (φ := .f32) (ψ := .f32) x0 x5 0 (by omega) (Cert.MsgSpec.rowOf 100000 (by omega) (val_main_v5 (F := Ideal) x2) e) d
        + Cert.MsgSpec.dotRows (φ := .f32) (ψ := .f32) x1 x5 128 (by omega) (Cert.MsgSpec.rowOf 50000 (by omega) (val_main_v12 (F := Ideal) x3) e) d := by
  rw [val_main_v17_apply, Cert.MsgSpec.sum_257]
  have hl : ∀ c : Fin 257, lidx_main_v17 (ix2 e d) c = ix2 e c := fun c =>
    funext fun a => Fin.ext (by match a with | ⟨0, _⟩ => rfl | ⟨1, _⟩ => rfl)
  have hr : ∀ c : Fin 257, ridx_main_v17 (ix2 e d) c = ix2 c d := fun c =>
    funext fun a => Fin.ext (by match a with | ⟨0, _⟩ => rfl | ⟨1, _⟩ => rfl)
  simp only [hl, hr]
  rw [joined_row_last_zero, zero_mul, add_zero]
  unfold Cert.MsgSpec.dotRows
  congr 1
  · refine Finset.sum_congr rfl fun k _ => ?_
    rw [joined_row_var_part]
    congr 2
    funext a
    match a with
    | ⟨0, _⟩ => exact Fin.ext (Nat.zero_add _).symm
    | ⟨1, _⟩ => rfl
  · refine Finset.sum_congr rfl fun k _ => ?_
    rw [joined_row_fac_part]

/-- The bias row of the message layer at an entry. -/
theorem message_bias_at (x6 : (⟨S128, .f32⟩ : BufTy).Contents (Elt Ideal)) (e : Fin 1000000) (d : Fin 128) :
    val_main_v19 (F := Ideal) x6 (ix2 e d) = x6 (ix1 d) := by
  rw [val_main_v19_apply, val_main_v18_apply]
  congr 1
  funext a
  match a with
  | ⟨0, _⟩ => rfl

/-- The message layer's relu threshold is zero. -/
theorem message_threshold_zero (i : S1000000x128.Idx) : val_main_call0_v0 (F := Ideal) i = 0 := by
  rw [val_main_call0_v0_apply, val_main_call0_cst_apply]
  exact Ideal.ofBits_zero_f32

/-- The reference's message of edge `e`, feature `d`. -/
theorem message_at (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (x5 : (⟨S257x128, .f32⟩ : BufTy).Contents (Elt Ideal))
    (x6 : (⟨S128, .f32⟩ : BufTy).Contents (Elt Ideal)) (e : Fin 1000000) (d : Fin 128) :
    val_main_v21 (F := Ideal) x0 x1 x2 x3 x5 x6 (ix2 e d)
      = Cert.MsgSpec.msgAt x0 x1 (val_main_v5 (F := Ideal) x2) (val_main_v12 (F := Ideal) x3) x5 x6 e d := by
  rw [val_main_v21_apply, val_main_v20_apply, message_dot_split, message_bias_at, message_threshold_zero]
  rfl

/-- The reference's messages are the specification's. -/
theorem messages_eq (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (x5 : (⟨S257x128, .f32⟩ : BufTy).Contents (Elt Ideal))
    (x6 : (⟨S128, .f32⟩ : BufTy).Contents (Elt Ideal)) :
    val_main_v21 (F := Ideal) x0 x1 x2 x3 x5 x6
      = Cert.MsgSpec.msg x0 x1 (val_main_v5 (F := Ideal) x2) (val_main_v12 (F := Ideal) x3) x5 x6 := by
  funext j
  obtain ⟨e, d, rfl⟩ : ∃ (e : Fin 1000000) (d : Fin 128), j = ix2 e d := ⟨j 0, j 1, eq_ix2 j⟩
  rw [message_at, Cert.MsgSpec.msg_apply]

/-- The 256-term dot product of a node's row joined with its aggregated row is the two 128-term dot products. -/
theorem node_joined_dot_split (x0 aggr : (⟨S100000x128, .f32⟩ : BufTy).Contents (Elt Ideal)) (x7 : (⟨S256x128, .f32⟩ : BufTy).Contents (Elt Ideal))
    (n : Fin 100000) (d : Fin 128) :
    ∑ k : Fin 256, concatenate S100000x256 1 [⟨S100000x128, x0⟩, ⟨S100000x128, aggr⟩]
          concatenates_S100000x128_S100000x128_S100000x256_d1 (lidx_main_v26 (ix2 n d) k) * x7 (ridx_main_v26 (ix2 n d) k)
      = Cert.MsgSpec.dotRows (φ := .f32) (ψ := .f32) x0 x7 0 (by omega) n d
        + Cert.MsgSpec.dotRows (φ := .f32) (ψ := .f32) aggr x7 128 (by omega) n d := by
  rw [Cert.MsgSpec.sum_256]
  have hl : ∀ c : Fin 256, lidx_main_v26 (ix2 n d) c = ix2 n c := fun c =>
    funext fun a => Fin.ext (by match a with | ⟨0, _⟩ => rfl | ⟨1, _⟩ => rfl)
  have hr : ∀ c : Fin 256, ridx_main_v26 (ix2 n d) c = ix2 c d := fun c =>
    funext fun a => Fin.ext (by match a with | ⟨0, _⟩ => rfl | ⟨1, _⟩ => rfl)
  simp only [hl, hr]
  unfold Cert.MsgSpec.dotRows
  congr 1
  · refine Finset.sum_congr rfl fun k _ => ?_
    have hc : concatenate S100000x256 1 [⟨S100000x128, x0⟩, ⟨S100000x128, aggr⟩]
        concatenates_S100000x128_S100000x128_S100000x256_d1 (ix2 n ⟨k.val, by omega⟩) = x0 (ix2 n k) :=
      concatenate_pair_apply_left (t := S100000x256) (1 : Fin 2) x0 aggr _ _ rfl (ix2 n k) (fun b => by
        match b with
        | ⟨0, _⟩ => rfl
        | ⟨1, _⟩ => rfl)
    rw [hc]
    congr 2
    funext a
    match a with
    | ⟨0, _⟩ => exact Fin.ext (Nat.zero_add _).symm
    | ⟨1, _⟩ => rfl
  · refine Finset.sum_congr rfl fun k _ => ?_
    have hc : concatenate S100000x256 1 [⟨S100000x128, x0⟩, ⟨S100000x128, aggr⟩]
        concatenates_S100000x128_S100000x128_S100000x256_d1 (ix2 n ⟨128 + k.val, by omega⟩) = aggr (ix2 n k) :=
      concatenate_pair_apply_right (t := S100000x256) (1 : Fin 2) x0 aggr _ _ rfl rfl (ix2 n k) (fun b hb => by
        match b with
        | ⟨0, _⟩ => rfl
        | ⟨1, _⟩ => exact absurd rfl hb) (by show k.val + 128 = 128 + k.val; omega)
    rw [hc]

/-- The aggregated messages are the aggregation of the specification's messages. -/
theorem aggregated_eq (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (x5 : (⟨S257x128, .f32⟩ : BufTy).Contents (Elt Ideal))
    (x6 : (⟨S128, .f32⟩ : BufTy).Contents (Elt Ideal)) :
    val_main_v24 (F := Ideal) x0 x1 x2 x3 x5 x6
      = Host.scatterAdd scatter_S100000x128_S1000000x1_S1000000x128_1_0_0_1 (val_main_v22 (F := Ideal)) (val_main_v23 (F := Ideal) x2)
          (Cert.MsgSpec.msg x0 x1 (val_main_v5 (F := Ideal) x2) (val_main_v12 (F := Ideal) x3) x5 x6) := by
  unfold val_main_v24
  rw [messages_eq]

/-- The node layer's dot product at an entry, split over the node's row and its aggregated row. -/
theorem node_dot_split (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (x5 : (⟨S257x128, .f32⟩ : BufTy).Contents (Elt Ideal))
    (x6 : (⟨S128, .f32⟩ : BufTy).Contents (Elt Ideal)) (x7 : (⟨S256x128, .f32⟩ : BufTy).Contents (Elt Ideal))
    (n : Fin 100000) (d : Fin 128) :
    val_main_v26 (F := Ideal) x0 x1 x2 x3 x5 x6 x7 (ix2 n d)
      = Cert.MsgSpec.dotRows (φ := .f32) (ψ := .f32) x0 x7 0 (by omega) n d
        + Cert.MsgSpec.dotRows (φ := .f32) (ψ := .f32) (val_main_v24 (F := Ideal) x0 x1 x2 x3 x5 x6) x7 128 (by omega) n d := by
  rw [val_main_v26_apply]
  unfold val_main_v25
  generalize val_main_v24 (F := Ideal) x0 x1 x2 x3 x5 x6 = aggr
  exact node_joined_dot_split x0 aggr x7 n d

/-- The bias row of the node layer at an entry. -/
theorem node_bias_at (x8 : (⟨S128, .f32⟩ : BufTy).Contents (Elt Ideal)) (n : Fin 100000) (d : Fin 128) :
    val_main_v28 (F := Ideal) x8 (ix2 n d) = x8 (ix1 d) := by
  rw [val_main_v28_apply, val_main_v27_apply]
  congr 1
  funext a
  match a with
  | ⟨0, _⟩ => rfl

/-- The node layer's relu threshold is zero. -/
theorem node_threshold_zero (i : S100000x128.Idx) : val_main_call1_v0 (F := Ideal) i = 0 := by
  rw [val_main_call1_v0_apply, val_main_call1_cst_apply]
  exact Ideal.ofBits_zero_f32

/-- The reference's result is the specification's node update of its own aggregated messages. -/
theorem result_eq (x0 : (⟨S100000x128, .f32⟩ : BufTy).Contents (Elt Ideal)) (x1 : (⟨S50000x128, .f32⟩ : BufTy).Contents (Elt Ideal))
    (x2 x3 : (⟨S1000000, .i32⟩ : BufTy).Contents (Elt Ideal)) (x5 : (⟨S257x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) :
    val_main_v31 (F := Ideal) x0 x1 x2 x3 x5 x6 x7 x8
      = Cert.MsgSpec.out x0
          (Host.scatterAdd scatter_S100000x128_S1000000x1_S1000000x128_1_0_0_1 (val_main_v22 (F := Ideal)) (val_main_v23 (F := Ideal) x2)
            (Cert.MsgSpec.msg x0 x1 (val_main_v5 (F := Ideal) x2) (val_main_v12 (F := Ideal) x3) x5 x6))
          x7 x8 := by
  funext j
  obtain ⟨n, d, rfl⟩ : ∃ (n : Fin 100000) (d : Fin 128), j = ix2 n d := ⟨j 0, j 1, eq_ix2 j⟩
  rw [val_main_v31_apply, val_main_v30_apply, val_main_v29_apply, node_dot_split, node_bias_at, node_threshold_zero, aggregated_eq,
    Cert.MsgSpec.out_apply]
  rfl

end Cert.ReferenceIdeal.RefValue

end
-- ==== Proof.lean ====
/-
  One round of message passing on a bipartite graph, written with three kernels and written as plain array operations,
  computes the same array.

  The reference gathers, for every edge, the variable row and the factor row it joins, joins them with a zero
  column, and applies one dense layer with 257 input features and relu; it sums the messages onto the variable nodes
  and applies a second dense layer, with 256 input features, to each node's row joined with its aggregated row,
  adding the result's relu to the node's row. The kernel's program applies the first layer's two 128-row weight
  blocks to the two node tables once each, in two kernels, gathers the projected rows and adds them; it sums the
  messages the same way, and a third kernel applies the second layer's two weight blocks to the node table and the
  aggregated table.

  On the extended reals the two are one function of the arguments, for every integer index input: both programs wrap
  a negative start index once and then clamp it into the table's rows, and a gather of whole rows commutes with a
  map applied row by row; a dot product with a joined row is the sum of the dot products with its pieces; the zero
  column contributes `0 * w = 0`. The aggregation is the same operation applied to the same index column and, by the
  above, the same messages, so it is never opened. No step uses finiteness of the inputs.

  The three frames: the two kernel programs' from their generated certificates, the reference's from its run.
  `preserves` is the empty ledger's `True`.
-/
import proofs.«425157_j3728031613009_3_alg».proof.Defs
import proofs.«425157_j3728031613009_3_alg».proof.Proof.Gen.Kernel
import proofs.«425157_j3728031613009_3_alg».proof.Proof.Gen.Kernel.Skeleton
import proofs.«425157_j3728031613009_3_alg».proof.Proof.Gen.Kernel.Launch
import proofs.«425157_j3728031613009_3_alg».proof.Proof.Gen.Kernel.Points
import proofs.«425157_j3728031613009_3_alg».proof.Proof.Gen.Kernel.Frame
import proofs.«425157_j3728031613009_3_alg».proof.Proof.Gen.KernelIdeal
import proofs.«425157_j3728031613009_3_alg».proof.Proof.Gen.KernelIdeal.Skeleton
import proofs.«425157_j3728031613009_3_alg».proof.Proof.Gen.KernelIdeal.Launch
import proofs.«425157_j3728031613009_3_alg».proof.Proof.Gen.KernelIdeal.Points
import proofs.«425157_j3728031613009_3_alg».proof.Proof.Gen.KernelIdeal.Frame
import proofs.«425157_j3728031613009_3_alg».proof.Proof.Gen.ReferenceIdeal
import proofs.«425157_j3728031613009_3_alg».proof.Proof.Gen.ReferenceIdeal.Run
import proofs.«425157_j3728031613009_3_alg».proof.Proof.Gen.ReferenceIdeal.Read
import proofs.«425157_j3728031613009_3_alg».proof.Proof.Gen.Pre_finite_inputs
import proofs.«425157_j3728031613009_3_alg».proof.Proof.KernelRun
import proofs.«425157_j3728031613009_3_alg».proof.Proof.KernelValue
import proofs.«425157_j3728031613009_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's node update of the aggregated specification messages. -/
theorem algebraic : Cert.algebraic_KernelIdeal_ReferenceIdeal := by
  intro m ρ m' ρ' _ hagree
  refine ⟨fun c => Cert.MsgSpec.out (Cert.KernelIdeal.Bridge.aVar m c)
      (Cert.KernelIdeal.Chain.aggregate m c
        (Cert.MsgSpec.msg (Cert.KernelIdeal.Bridge.aVar m c) (Cert.KernelIdeal.Bridge.aFac m c)
          (Cert.KernelIdeal.Chain.colVar m c) (Cert.KernelIdeal.Chain.colFac m c)
          (Cert.KernelIdeal.Bridge.aWm m c) (Cert.KernelIdeal.Bridge.aBm m c)))
      (Cert.KernelIdeal.Bridge.aWc m c) (Cert.KernelIdeal.Bridge.aBc m c), ?_, ?_⟩
  · exact (θ_run Cert.KernelIdeal.defs _ _).mono
      (fun r h c => ⟨(h c).1.trans (Cert.KernelIdeal.Bridge.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, -, h5, h6, h7, h8⟩ := hagree c
    refine (Cert.ReferenceIdeal.Read.val_main_v31_eq (F := Ideal) _ _ _ _ _ _ _ _).trans ?_
    rw [Cert.ReferenceIdeal.RefValue.result_eq, h0, h1, h2, h3, h5, h6, h7, h8]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
